-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel

variable [Facts]

def fn {F : FTy → Type} [FloatOps F] (main_arg0 : FVec F S50000x512 .f32) (main_arg1 : FVec F S50000x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  main_v8
-- ==== Kernel.lean ====
abbrev S50000x512 : Shape := ⟨2, ![50000, 512]⟩
abbrev S512x512 : Shape := ⟨2, ![512, 512]⟩
abbrev S2000x512 : Shape := ⟨2, ![2000, 512]⟩
abbrev S1x512 : Shape := ⟨2, ![1, 512]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S1x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x512_S2000x512_0_0 : ∀ a, (![0, 0] : Fin 2 → Nat) a + S2000x512.size a ≤ S2000x512.size a
  h_S2000x512 : 0 < S2000x512.numel
  shapeCasts_S512x512_S512x512 : S512x512.ShapeCasts S512x512
  reduces_S2000x512_S512 : S2000x512.Reduces [0] S512
  shapeCasts_S512_S1x512 : S512.ShapeCasts S1x512
  iota_S512x512_d0_w32 : S512x512.Iotas .tc 32 [0]
  iota_S512x512_d1_w32 : S512x512.Iotas .tc 32 [1]
  natLt_1_32 : 1 < 32
  broadcasts_S512x1_S512x512 : S512x1.Broadcasts S512x512
  dot_S2000x512_S2000x512_S512x512_0_0_1_1_n_n_wf : DotDims.WF S2000x512 S2000x512 S512x512 [0] [0] [1] [1] [] []
  dot_S512x512_S1x512_S512x1_1_1_0_0_n_n_wf : DotDims.WF S512x512 S1x512 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .f32 = 32 ∨ (Rect.block (s := S50000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)

variable [Facts₀]

def dot_S2000x512_S2000x512_S512x512_0_0_1_1_n_n : DotDims S2000x512 S2000x512 S512x512 where
  lhsContracting := [0]
  rhsContracting := [0]
  lhsNonContracting := [1]
  rhsNonContracting := [1]
  lhsBatch := []
  rhsBatch := []
  wf := dot_S2000x512_S2000x512_S512x512_0_0_1_1_n_n_wf
def dot_S512x512_S1x512_S512x1_1_1_0_0_n_n : DotDims S512x512 S1x512 S512x1 where
  lhsContracting := [1]
  rhsContracting := [1]
  lhsNonContracting := [0]
  rhsNonContracting := [0]
  lhsBatch := []
  rhsBatch := []
  wf := dot_S512x512_S1x512_S512x1_1_1_0_0_n_n_wf

abbrev win0_0 : Pipeline.Window sig grid0 :=
  Pipeline.Window.ofSpec (Memref.whole main_arg1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S_ : Shape := ⟨0, ![]⟩
abbrev S512 : Shape := ⟨1, ![512]⟩
abbrev S512x50000 : Shape := ⟨2, ![512, 50000]⟩
abbrev S512x512 : Shape := ⟨2, ![512, 512]⟩
abbrev S512x1 : Shape := ⟨2, ![512, 1]⟩

abbrev nBuf : Space → Nat
  | .hbm => 9
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S_, .f32⟩
  | .hbm, ⟨3, _⟩ => ⟨S512, .f32⟩
  | .hbm, ⟨4, _⟩ => ⟨S512x50000, .f32⟩
  | .hbm, ⟨5, _⟩ => ⟨S512x512, .f32⟩
  | .hbm, ⟨6, _⟩ => ⟨S512x1, .f32⟩
  | .hbm, ⟨7, _⟩ => ⟨S512x512, .f32⟩
  | .hbm, ⟨8, _⟩ => ⟨S512x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  reducesTo_S50000x512_S512_d0 : S50000x512.ReducesTo [0] S512
  h_S_ : 0 < S_.numel
  transposes_S50000x512_S512x50000_1_0 : S50000x512.Transposes [1, 0] S512x50000
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x50000_S50000x512_S512x512_1_0_0_1_n_n_wf : DotDims.WF S512x50000 S50000x512 S512x512 [1] [0] [0] [1] [] []

variable [Facts₀]

def dot_S512x50000_S50000x512_S512x512_1_0_0_1_n_n : DotDims S512x50000 S50000x512 S512x512 where
  lhsContracting := [1]
  rhsContracting := [0]
  lhsNonContracting := [0]
  rhsNonContracting := [1]
  lhsBatch := []
  rhsBatch := []
  wf := dot_S512x50000_S50000x512_S512x512_1_0_0_1_n_n_wf

class Facts : Prop extends Facts₀ where

variable [Facts]
-- ==== Proof.Pieces.lean ====
/-
  What one grid point leaves behind, case by case, as plain values.

  The body keeps two running quantities across the 25 grid points: the [512,512] output block (the
  partial product of the transposed targets with the features) and a [1,512] scratch row (the partial
  column sums of the targets). At every point it adds the current blocks' contribution to both. At the
  first point both are first reset to zero; at the last point the output is finally divided, row by
  row, by the finished column sums.

  Here each case's stores are read back as one value of the blocks loaded and of what the point before
  left: the update `k0_pay3` / `k0_pay4` over the carried contents (the zero blocks `k0_pay1` /
  `k0_pay2` at the first point), and at the last point the quotient `k0_pay5` of the two updated
  quantities. All of it holds at any float instance.
-/
import proofs.«100807_g44066364457311_cont_sun_m_439_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-! ## A middle point: both quantities updated over what the point before left -/

/-- The output block after a middle point: the carried block plus this point's product. -/
theorem out_mid (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : ¬cond0_1 i)
    (x0 x1 : Vec F S2000x512 .f32) (xo : Vec F S512x512 .f32) (xs : Vec F S1x512 .f32) :
    out0_B_2 c i a1 h1 a2 h2 a3 h3 a4 h4 hc0 hc1 x0 x1 xo xs = k0_pay3 x0 x1 xo := by
  unfold out0_B_2
  rw [View.read_writes_eq_canon _ _ _ (cover0_B_2 c i a1 h1 a2 h2 a3 h3 a4 h4 hc0 hc1 x0 x1 xo xs)]
  unfold kernelRun0_B
  dsimp only
  sl_unfold_words
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

/-- The scratch row after a middle point: the carried row plus this block's column sums. -/
theorem cnt_mid (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : ¬cond0_1 i)
    (x0 x1 : Vec F S2000x512 .f32) (xo : Vec F S512x512 .f32) (xs : Vec F S1x512 .f32) :
    sout0_B_0 c i a1 h1 a2 h2 a3 h3 a4 h4 hc0 hc1 x0 x1 xo xs = k0_pay4 x0 xs := by
  unfold sout0_B_0
  rw [View.read_writes_eq_canon _ _ _ (scover0_B_0 c i a1 h1 a2 h2 a3 h3 a4 h4 hc0 hc1 x0 x1 xo xs)]
  unfold kernelRun0_B
  dsimp only
  sl_unfold_words
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

/-! ## The first point: the same updates over the zero blocks just stored -/

/-- The output block after the first point: zero plus the first product. -/
theorem out_first (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : cond0_0 i) (hc1 : ¬cond0_1 i)
    (x0 x1 : Vec F S2000x512 .f32) :
    out0_A_2 c i a1 h1 a2 h2 a3 h3 a4 h4 hc0 hc1 x0 x1 = k0_pay3 x0 x1 (k0_pay1 (F := F)) := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S512x512) hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

/-- The scratch row after the first point: zero plus the first block's column sums. -/
theorem cnt_first (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : cond0_0 i) (hc1 : ¬cond0_1 i)
    (x0 x1 : Vec F S2000x512 .f32) :
    sout0_A_0 c i a1 h1 a2 h2 a3 h3 a4 h4 hc0 hc1 x0 x1 = k0_pay4 x0 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x512) hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

/-! ## The last point: the updates, then the output divided by the finished column sums -/

/-- The output block after the last point: the updated block over the updated scratch row. -/
theorem out_last (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : cond0_1 i)
    (x0 x1 : Vec F S2000x512 .f32) (xo : Vec F S512x512 .f32) (xs : Vec F S1x512 .f32) :
    out0_C_2 c i a1 h1 a2 h2 a3 h3 a4 h4 hc0 hc1 x0 x1 xo xs = k0_pay5 (k0_pay4 x0 xs) (k0_pay3 x0 x1 xo) := by
  unfold out0_C_2
  rw [View.read_writes_eq_canon _ _ _ (cover0_C_2 c i a1 h1 a2 h2 a3 h3 a4 h4 hc0 hc1 x0 x1 xo xs)]
  unfold kernelRun0_C
  dsimp only
  sl_unfold_words
  rw [View.canon_cons_unit_zero (S := S512x512) hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

/-- The scratch row after the last point: updated as at any other point. -/
theorem cnt_last (c : Dev nD) (i : grid0.Coords) (a1 : Memref sig .tc .vmem S2000x512 .f32) (h1 : a1.IsWhole)
    (a2 : Memref sig .tc .vmem S2000x512 .f32) (h2 : a2.IsWhole) (a3 : Memref sig .tc .vmem S512x512 .f32) (h3 : a3.IsWhole)
    (a4 : Memref sig .tc .vmem S1x512 .f32) (h4 : a4.IsWhole) (hc0 : ¬cond0_0 i) (hc1 : cond0_1 i)
    (x0 x1 : Vec F S2000x512 .f32) (xo : Vec F S512x512 .f32) (xs : Vec F S1x512 .f32) :
    sout0_C_0 c i a1 h1 a2 h2 a3 h3 a4 h4 hc0 hc1 x0 x1 xo xs = k0_pay4 x0 xs := by
  unfold sout0_C_0
  rw [View.read_writes_eq_canon _ _ _ (scover0_C_0 c i a1 h1 a2 h2 a3 h3 a4 h4 hc0 hc1 x0 x1 xo xs)]
  unfold kernelRun0_C
  dsimp only
  sl_unfold_words
  rw [View.canon_unit_zero hz]
  simp only [View.readAt_eq_ld, h1.read_unread, h2.read_unread, h3.read_unread, h4.read_unread,
    View.ld_unit_zero (S := S2000x512) hz, View.ld_unit_zero (S := S512x512) hz, View.ld_unit_zero (S := S1x512) hz,
    View.readCov_unit_zero (S := S512x512) _ hz, View.readCov_unit_zero (S := S1x512) _ hz]

end Cert.KernelIdeal.Pieces

end
-- ==== Proof.Payloads.lean ====
/-
  The body's five stored values, read at an index over the extended reals.

  * the two zero blocks the first point stores are `0` everywhere;
  * the update of the output block: at `(p, q)` the carried entry plus the block's contribution
    `∑ r, t (r, p) · f (r, q)` — the product contracts the ROW axis of both loaded blocks, so it is the
    transposed targets block times the features block, into a zero accumulator;
  * the update of the scratch row: at column `q` the carried entry plus `∑ r, t (r, q)`;
  * the quotient at the last point: the scratch row is turned into a column by a product with the
    identity matrix `[p = k]`, which returns `s (0, p)` exactly on every extended real (`1 · x = x`,
    `0 · x = 0`, also at the infinities), and the output entry `(p, q)` is divided by it.
-/
import proofs.«100807_g44066364457311_cont_sun_m_439_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-! ## The zero blocks -/

theorem zero_blk_apply (j : S512x512.Idx) : k0_pay1 (F := Ideal) j = 0 := by
  show Ideal.ofBits .f32 0x00000000#32 = 0
  exact Ideal.ofBits_zero_f32

theorem zero_row_apply (j : S1x512.Idx) : k0_pay2 (F := Ideal) j = 0 := by
  unfold k0_pay2
  refine (congrFun (shapeCast_self _ shapeCasts_S1x512_S1x512) j).trans ?_
  show Ideal.ofBits .f32 0x00000000#32 = 0
  exact Ideal.ofBits_zero_f32

/-! ## The block product: rows contracted on both sides -/

theorem lhs_prod_0 (i : S512x512.Idx) (q : dot_S2000x512_S2000x512_S512x512_0_0_1_1_n_n.contr.Idx) :
    (dot_S2000x512_S2000x512_S512x512_0_0_1_1_n_n.lhsIdx i q 0).val = (q ⟨0, by decide⟩).val :=
  dot_S2000x512_S2000x512_S512x512_0_0_1_1_n_n.lhsIdx_val_of_single rfl i q
theorem lhs_prod_1 (i : S512x512.Idx) (q : dot_S2000x512_S2000x512_S512x512_0_0_1_1_n_n.contr.Idx) :
    (dot_S2000x512_S2000x512_S512x512_0_0_1_1_n_n.lhsIdx i q 1).val = (i 0).val := by
  unfold DotDims.lhsIdx
  rw [dif_neg (show ¬(1 : Fin S2000x512.rank) ∈ dot_S2000x512_S2000x512_S512x512_0_0_1_1_n_n.lhsBatch by decide), dif_pos (show (1 : Fin S2000x512.rank) ∈ dot_S2000x512_S2000x512_S512x512_0_0_1_1_n_n.lhsNonContracting by decide)]
  rfl
theorem rhs_prod_0 (i : S512x512.Idx) (q : dot_S2000x512_S2000x512_S512x512_0_0_1_1_n_n.contr.Idx) :
    (dot_S2000x512_S2000x512_S512x512_0_0_1_1_n_n.rhsIdx i q 0).val = (q ⟨0, by decide⟩).val :=
  dot_S2000x512_S2000x512_S512x512_0_0_1_1_n_n.rhsIdx_val_of_single rfl i q
theorem rhs_prod_1 (i : S512x512.Idx) (q : dot_S2000x512_S2000x512_S512x512_0_0_1_1_n_n.contr.Idx) :
    (dot_S2000x512_S2000x512_S512x512_0_0_1_1_n_n.rhsIdx i q 1).val = (i 1).val := by
  unfold DotDims.rhsIdx
  rw [dif_neg (show ¬(1 : Fin S2000x512.rank) ∈ dot_S2000x512_S2000x512_S512x512_0_0_1_1_n_n.rhsBatch by decide), dif_pos (show (1 : Fin S2000x512.rank) ∈ dot_S2000x512_S2000x512_S512x512_0_0_1_1_n_n.rhsNonContracting by decide)]
  rfl

/-- The product of two loaded blocks into the zero accumulator, at `(p, q)`: `∑ r, x0 (r, p) · x1 (r, q)`. -/
theorem block_product_apply (x0 x1 : FVec Ideal S2000x512 .f32) (p q : Fin 512) :
    matmul dot_S2000x512_S2000x512_S512x512_0_0_1_1_n_n none x0 x1 (constant S512x512 .f32 0x00000000#32) (ix2 p q)
      = ∑ r : Fin 2000, x0 (ix2 r p) * x1 (ix2 r q) := by
  simp only [matmul]
  rw [Ideal.matmul_constant_zero_apply, ← Equiv.sum_comp (contrEquiv1 dot_S2000x512_S2000x512_S512x512_0_0_1_1_n_n 2000 rfl rfl).symm]
  refine Finset.sum_congr rfl fun k _ => ?_
  have hk := contrEquiv1_symm_val dot_S2000x512_S2000x512_S512x512_0_0_1_1_n_n 2000 rfl rfl k
  have el : dot_S2000x512_S2000x512_S512x512_0_0_1_1_n_n.lhsIdx (ix2 p q) ((contrEquiv1 dot_S2000x512_S2000x512_S512x512_0_0_1_1_n_n 2000 rfl rfl).symm k) = ix2 k p := funext fun a => Fin.ext (by
    match a with
    | ⟨0, _⟩ => exact (lhs_prod_0 _ _).trans hk
    | ⟨1, _⟩ => exact lhs_prod_1 _ _)
  have er : dot_S2000x512_S2000x512_S512x512_0_0_1_1_n_n.rhsIdx (ix2 p q) ((contrEquiv1 dot_S2000x512_S2000x512_S512x512_0_0_1_1_n_n 2000 rfl rfl).symm k) = ix2 k q := funext fun a => Fin.ext (by
    match a with
    | ⟨0, _⟩ => exact (rhs_prod_0 _ _).trans hk
    | ⟨1, _⟩ => exact rhs_prod_1 _ _)
  rw [el, er]

/-- The output block's update at `(p, q)`. -/
theorem update_apply (x0 x1 : Vec Ideal S2000x512 .f32) (o : Vec Ideal S512x512 .f32) (p q : Fin 512) :
    k0_pay3 (F := Ideal) x0 x1 o (ix2 p q) = o (ix2 p q) + ∑ r : Fin 2000, x0 (ix2 r p) * x1 (ix2 r q) := by
  unfold k0_pay3
  exact congrArg₂ (· + ·) (congrFun (shapeCast_self o shapeCasts_S512x512_S512x512) (ix2 p q)) (block_product_apply x0 x1 p q)

/-! ## The column sums of a block -/

/-- The sum of a block over its row axis, at column `q`. -/
theorem block_colsum_apply (x0 : FVec Ideal S2000x512 .f32) (hacc : (0x00000000#32 : BitVec 32) = 0x00000000#32) (q : Fin 512) :
    multiReduction .add [0] S512 x0 0x00000000#32 reduces_S2000x512_S512 (.inl rfl) hacc (ix1 q)
      = ∑ r : Fin 2000, x0 (ix2 r q) := by
  refine (Ideal.multiReduction_add_single x0 0x00000000#32 reduces_S2000x512_S512 (.inl rfl) hacc (ix1 q)).trans ?_
  refine Finset.sum_congr rfl fun r _ => congrArg x0 (funext fun a => Fin.ext ?_)
  match a with
  | ⟨0, _⟩ => rfl
  | ⟨1, _⟩ => rfl

/-- The scratch row's update at column `q`. -/
theorem colsum_apply (x0 : Vec Ideal S2000x512 .f32) (s : Vec Ideal S1x512 .f32) (u : Fin 1) (q : Fin 512) :
    k0_pay4 (F := Ideal) x0 s (ix2 u q) = s (ix2 u q) + ∑ r : Fin 2000, x0 (ix2 r q) := by
  unfold k0_pay4
  refine (congrFun (shapeCast_self _ shapeCasts_S1x512_S1x512) (ix2 u q)).trans ?_
  refine congrArg (s (ix2 u q) + ·) ?_
  refine (shapeCast_a_1a_apply _ shapeCasts_S512_S1x512 u q).trans ?_
  exact block_colsum_apply x0 rfl q

/-! ## The identity product and the quotient -/

theorem lhs_eye_0 (i : S512x1.Idx) (q : dot_S512x512_S1x512_S512x1_1_1_0_0_n_n.contr.Idx) :
    (dot_S512x512_S1x512_S512x1_1_1_0_0_n_n.lhsIdx i q 0).val = (i 0).val := by
  unfold DotDims.lhsIdx
  rw [dif_neg (show ¬(0 : Fin S512x512.rank) ∈ dot_S512x512_S1x512_S512x1_1_1_0_0_n_n.lhsBatch by decide), dif_pos (show (0 : Fin S512x512.rank) ∈ dot_S512x512_S1x512_S512x1_1_1_0_0_n_n.lhsNonContracting by decide)]
  rfl
theorem lhs_eye_1 (i : S512x1.Idx) (q : dot_S512x512_S1x512_S512x1_1_1_0_0_n_n.contr.Idx) :
    (dot_S512x512_S1x512_S512x1_1_1_0_0_n_n.lhsIdx i q 1).val = (q ⟨0, by decide⟩).val :=
  dot_S512x512_S1x512_S512x1_1_1_0_0_n_n.lhsIdx_val_of_single rfl i q
theorem rhs_eye_0 (i : S512x1.Idx) (q : dot_S512x512_S1x512_S512x1_1_1_0_0_n_n.contr.Idx) :
    (dot_S512x512_S1x512_S512x1_1_1_0_0_n_n.rhsIdx i q 0).val = (i 1).val := by
  unfold DotDims.rhsIdx
  rw [dif_neg (show ¬(0 : Fin S1x512.rank) ∈ dot_S512x512_S1x512_S512x1_1_1_0_0_n_n.rhsBatch by decide), dif_pos (show (0 : Fin S1x512.rank) ∈ dot_S512x512_S1x512_S512x1_1_1_0_0_n_n.rhsNonContracting by decide)]
  rfl
theorem rhs_eye_1 (i : S512x1.Idx) (q : dot_S512x512_S1x512_S512x1_1_1_0_0_n_n.contr.Idx) :
    (dot_S512x512_S1x512_S512x1_1_1_0_0_n_n.rhsIdx i q 1).val = (q ⟨0, by decide⟩).val :=
  dot_S512x512_S1x512_S512x1_1_1_0_0_n_n.rhsIdx_val_of_single rfl i q

/-- An entry of the identity matrix the body builds from two iotas: `1` on the diagonal, `0` off it. -/
theorem eye_apply (p k : Fin 512) :
    (sitofp .f32 (extui 32 (cmpi .eq (iota .tc S512x512 32 [0] iota_S512x512_d0_w32) (iota .tc S512x512 32 [1] iota_S512x512_d1_w32)) natLt_1_32)
      : FVec Ideal S512x512 .f32) (ix2 p k) = if p = k then (1 : EReal) else 0 := by
  show (((((IntOp.cmpi .eq (iota .tc S512x512 32 [0] iota_S512x512_d0_w32 (ix2 p k)) (iota .tc S512x512 32 [1] iota_S512x512_d1_w32 (ix2 p k))).setWidth 32).toInt : ℤ) : ℝ) : EReal) = _
  rw [iota_single_apply, iota_single_apply]
  show (((((IntOp.cmpi .eq (BitVec.ofNat 32 p.val) (BitVec.ofNat 32 k.val)).setWidth 32).toInt : ℤ) : ℝ) : EReal) = _
  have hp := p.isLt
  have hk := k.isLt
  by_cases h : p = k
  · subst h
    rw [if_pos rfl]
    simp [IntOp.cmpi]
  · rw [if_neg h]
    have hne : BitVec.ofNat 32 p.val ≠ BitVec.ofNat 32 k.val := by
      intro e
      apply h
      apply Fin.ext
      have := congrArg BitVec.toNat e
      simp only [BitVec.toNat_ofNat] at this
      omega
    have hb : (BitVec.ofNat 32 p.val == BitVec.ofNat 32 k.val) = false := beq_eq_false_iff_ne.mpr hne
    simp [IntOp.cmpi, hb]

/-- The scratch row turned into a column by the identity product: entry `(p, ·)` is `s (0, p)`. -/
theorem eye_product_apply (s : FVec Ideal S1x512 .f32) (p : Fin 512) (u : Fin 1) :
    matmul dot_S512x512_S1x512_S512x1_1_1_0_0_n_n none
      (sitofp .f32 (extui 32 (cmpi .eq (iota .tc S512x512 32 [0] iota_S512x512_d0_w32) (iota .tc S512x512 32 [1] iota_S512x512_d1_w32)) natLt_1_32) : FVec Ideal S512x512 .f32)
      s (constant S512x1 .f32 0x00000000#32) (ix2 p u) = s (ix2 (0 : Fin 1) p) := by
  simp only [matmul]
  rw [Ideal.matmul_constant_zero_apply, ← Equiv.sum_comp (contrEquiv1 dot_S512x512_S1x512_S512x1_1_1_0_0_n_n 512 rfl rfl).symm]
  have hterm : ∀ k : Fin 512,
      (sitofp .f32 (extui 32 (cmpi .eq (iota .tc S512x512 32 [0] iota_S512x512_d0_w32) (iota .tc S512x512 32 [1] iota_S512x512_d1_w32)) natLt_1_32) : FVec Ideal S512x512 .f32)
        (dot_S512x512_S1x512_S512x1_1_1_0_0_n_n.lhsIdx (ix2 p u) ((contrEquiv1 dot_S512x512_S1x512_S512x1_1_1_0_0_n_n 512 rfl rfl).symm k))
      * s (dot_S512x512_S1x512_S512x1_1_1_0_0_n_n.rhsIdx (ix2 p u) ((contrEquiv1 dot_S512x512_S1x512_S512x1_1_1_0_0_n_n 512 rfl rfl).symm k))
      = if p = k then s (ix2 (0 : Fin 1) k) else 0 := by
    intro k
    have hk := contrEquiv1_symm_val dot_S512x512_S1x512_S512x1_1_1_0_0_n_n 512 rfl rfl k
    have el : dot_S512x512_S1x512_S512x1_1_1_0_0_n_n.lhsIdx (ix2 p u) ((contrEquiv1 dot_S512x512_S1x512_S512x1_1_1_0_0_n_n 512 rfl rfl).symm k) = ix2 p k := funext fun a => Fin.ext (by
      match a with
      | ⟨0, _⟩ => exact lhs_eye_0 _ _
      | ⟨1, _⟩ => exact (lhs_eye_1 _ _).trans hk)
    have er : dot_S512x512_S1x512_S512x1_1_1_0_0_n_n.rhsIdx (ix2 p u) ((contrEquiv1 dot_S512x512_S1x512_S512x1_1_1_0_0_n_n 512 rfl rfl).symm k) = ix2 (0 : Fin 1) k := funext fun a => Fin.ext (by
      match a with
      | ⟨0, _⟩ => exact (rhs_eye_0 _ _).trans (by show u.val = 0; omega)
      | ⟨1, _⟩ => exact (rhs_eye_1 _ _).trans hk)
    rw [el, er, eye_apply]
    split
    · exact one_mul _
    · exact zero_mul _
  rw [Finset.sum_congr rfl fun k _ => hterm k, Finset.sum_ite_eq Finset.univ p]
  simp

/-- The last point's quotient at `(p, q)`: the output entry over the scratch row's entry of its row `p`. -/
theorem quotient_apply (s : Vec Ideal S1x512 .f32) (o : Vec Ideal S512x512 .f32) (p q : Fin 512) :
    k0_pay5 (F := Ideal) s o (ix2 p q) = Ideal.div (o (ix2 p q)) (s (ix2 (0 : Fin 1) p)) := by
  unfold k0_pay5
  refine congrArg₂ Ideal.div (congrFun (shapeCast_self o shapeCasts_S512x512_S512x512) (ix2 p q)) ?_
  refine (broadcastTo_apply _ broadcasts_S512x1_S512x512 (ix2 p q) (ix2 p (0 : Fin 1)) fun a => ?_).trans (eye_product_apply s p 0)
  match a with
  | ⟨0, _⟩ => show p.val = if (512 : Nat) = 1 then 0 else p.val; rw [if_neg (by decide)]
  | ⟨1, _⟩ => show 0 = if (1 : Nat) = 1 then 0 else q.val; rw [if_pos rfl]

end Cert.KernelIdeal.Payloads

end
-- ==== Proof.BlockSums.lean ====
/-
  The arithmetic of summing 50000 rows in 25 blocks of 2000, over any commutative monoid.

  Row `2000 · b + r` is row `r` of block `b`. A sum over all rows is the sum over the blocks of the
  sums over each block's rows — only commutativity and associativity of `+` are used, so this holds
  on the extended reals at the infinities too. `upTo n g` is the sum of the first `n + 1` block terms:
  what an accumulator holds after grid point `n`.
-/
import Mathlib.Algebra.BigOperators.Fin
import Mathlib.Algebra.BigOperators.Group.Finset.Basic
import Mathlib.Logic.Equiv.Fin.Basic

namespace Cert.BlockSums

variable {M : Type*} [AddCommMonoid M]

/-- Row `r` of block `b`, among all 50000 rows. -/
def rowOf (b : Fin 25) (r : Fin 2000) : Fin 50000 :=
  ⟨2000 * b.val + r.val, by have := b.isLt; have := r.isLt; omega⟩

@[simp] theorem rowOf_val (b : Fin 25) (r : Fin 2000) : (rowOf b r).val = 2000 * b.val + r.val := rfl

/-- The whole sum, block by block. -/
theorem sum_blocks (f : Fin 50000 → M) :
    ∑ b : Fin 25, ∑ r : Fin 2000, f (rowOf b r) = ∑ n : Fin 50000, f n := by
  have e : ∑ n : Fin 50000, f n = ∑ x : Fin 25 × Fin 2000, f (rowOf x.1 x.2) := by
    rw [← Equiv.sum_comp (finProdFinEquiv (m := 25) (n := 2000)) (fun n : Fin (25 * 2000) => f n)]
    refine Finset.sum_congr rfl fun x _ => congrArg f (Fin.ext ?_)
    show x.2.val + 2000 * x.1.val = 2000 * x.1.val + x.2.val
    omega
  rw [e, Fintype.sum_prod_type]

/-- The sum of the block terms `g 0, …, g n`. -/
def upTo (n : ℕ) (g : Fin 25 → M) : M := ∑ b ∈ Finset.univ.filter (fun b : Fin 25 => b.val ≤ n), g b

theorem upTo_zero (g : Fin 25 → M) : upTo 0 g = g 0 := by
  unfold upTo
  have : Finset.univ.filter (fun b : Fin 25 => b.val ≤ 0) = {0} := by
    ext b
    simp only [Finset.mem_filter, Finset.mem_univ, true_and, Finset.mem_singleton, Nat.le_zero]
    exact ⟨fun h => Fin.ext h, fun h => by rw [h]; rfl⟩
  rw [this, Finset.sum_singleton]

theorem upTo_succ (n : ℕ) (h : n + 1 < 25) (g : Fin 25 → M) : upTo (n + 1) g = upTo n g + g ⟨n + 1, h⟩ := by
  unfold upTo
  have : Finset.univ.filter (fun b : Fin 25 => b.val ≤ n + 1)
      = insert (⟨n + 1, h⟩ : Fin 25) (Finset.univ.filter (fun b : Fin 25 => b.val ≤ n)) := by
    ext b
    simp only [Finset.mem_filter, Finset.mem_univ, true_and, Finset.mem_insert]
    constructor
    · intro hb
      by_cases e : b.val = n + 1
      · exact Or.inl (Fin.ext e)
      · exact Or.inr (by omega)
    · rintro (rfl | hb)
      · exact le_refl _
      · omega
  rw [this, Finset.sum_insert (by simp), add_comm]

theorem upTo_last (g : Fin 25 → M) : upTo 24 g = ∑ b : Fin 25, g b := by
  unfold upTo
  rw [Finset.filter_true_of_mem fun b _ => by have := b.isLt; omega]

end Cert.BlockSums
-- ==== Proof.Accumulate.lean ====
/-
  What the two running quantities hold after each grid point, over the extended reals.

  Grid point `b` loads rows `2000·b … 2000·b + 1999` of the targets and of the features. After point
  `n` the scratch row holds, at column `q`, the sum over blocks `0 … n` of the block's column sum of the
  targets, and the output block holds at `(p, q)` the sum over the same blocks of
  `∑ r, t (row, p) · f (row, q)` — except after the last point, where that sum has already been divided
  by the finished scratch entry of row `p`. This is proved by induction on the point: the first point
  starts both from the zero blocks (`0 + x = x`), every later point adds its own block term to what
  the point before left.
-/
import proofs.«100807_g44066364457311_cont_sun_m_439_3_alg».proof.Proof.Gen.KernelIdeal.Value
import proofs.«100807_g44066364457311_cont_sun_m_439_3_alg».proof.Proof.Pieces
import proofs.«100807_g44066364457311_cont_sun_m_439_3_alg».proof.Proof.Payloads
import proofs.«100807_g44066364457311_cont_sun_m_439_3_alg».proof.Proof.BlockSums

noncomputable section

open Idealize.ShloMosaic Idealize.ShloMosaic.TcCoe Idealize.ShloMosaic.ValueIdx Idealize.SL.Sem

namespace Cert.KernelIdeal.Acc

open Cert.KernelIdeal Cert.KernelIdeal.Gen Cert.BlockSums

variable (m : (ℓ : Loc nD τ sig) → Buf (Elt Ideal) ℓ)

/-- The targets and the features as the region finds them, and their blocks at a grid point. -/
abbrev targets (c : Dev nD) : Vec Ideal S50000x512 .f32 := V m c main_arg1
abbrev features (c : Dev nD) : Vec Ideal S50000x512 .f32 := V m c main_arg0
abbrev tblk (c : Dev nD) (t : Fin cfg0.N) : Vec Ideal S2000x512 .f32 := iblk m c 0 t
abbrev fblk (c : Dev nD) (t : Fin cfg0.N) : Vec Ideal S2000x512 .f32 := iblk m c 1 t

/-! ## A block is 2000 consecutive rows -/

/-- Both input windows move down the row axis one block per grid point and never along the columns. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem tblk_apply (c : Dev nD) (t : Fin cfg0.N) (ht : t.val < 25) (r : Fin 2000) (q : Fin 512) :
    tblk m c t (ix2 r q) = targets m c (ix2 (rowOf ⟨t.val, ht⟩ r) q) := by
  unfold tblk iblk
  rw [View.read_apply]
  show V m c main_arg1 _ = V m c main_arg1 _
  congr 1
  funext a
  apply Fin.ext
  match a with
  | ⟨0, _⟩ => show win0_0.index t 0 * 2000 + 1 * r.val = 2000 * t.val + r.val; rw [(idx_facts t).1]; omega
  | ⟨1, _⟩ => show win0_0.index t 1 * 512 + 1 * q.val = q.val; rw [(idx_facts t).2.1]; omega

theorem fblk_apply (c : Dev nD) (t : Fin cfg0.N) (ht : t.val < 25) (r : Fin 2000) (q : Fin 512) :
    fblk m c t (ix2 r q) = features m c (ix2 (rowOf ⟨t.val, ht⟩ r) q) := by
  unfold fblk iblk
  rw [View.read_apply]
  show V m c main_arg0 _ = V m c main_arg0 _
  congr 1
  funext a
  apply Fin.ext
  match a with
  | ⟨0, _⟩ => show win0_1.index t 0 * 2000 + 1 * r.val = 2000 * t.val + r.val; rw [(idx_facts t).2.2.1]; omega
  | ⟨1, _⟩ => show win0_1.index t 1 * 512 + 1 * q.val = q.val; rw [(idx_facts t).2.2.2]; omega

/-! ## One block's terms -/

/-- Block `b`'s column sum of the targets at column `q`. -/
def colTerm (c : Dev nD) (q : Fin 512) (b : Fin 25) : EReal :=
  ∑ r : Fin 2000, targets m c (ix2 (rowOf b r) q)

/-- Block `b`'s contribution to the product at `(p, q)`. -/
def prodTerm (c : Dev nD) (p q : Fin 512) (b : Fin 25) : EReal :=
  ∑ r : Fin 2000, targets m c (ix2 (rowOf b r) p) * features m c (ix2 (rowOf b r) q)

theorem colTerm_blk (c : Dev nD) (t : Fin cfg0.N) (ht : t.val < 25) (q : Fin 512) :
    ∑ r : Fin 2000, tblk m c t (ix2 r q) = colTerm m c q ⟨t.val, ht⟩ :=
  Finset.sum_congr rfl fun r _ => tblk_apply m c t ht r q

theorem prodTerm_blk (c : Dev nD) (t : Fin cfg0.N) (ht : t.val < 25) (p q : Fin 512) :
    ∑ r : Fin 2000, tblk m c t (ix2 r p) * fblk m c t (ix2 r q) = prodTerm m c p q ⟨t.val, ht⟩ :=
  Finset.sum_congr rfl fun r _ => by rw [tblk_apply m c t ht r p, fblk_apply m c t ht r q]

/-! ## One step, case by case, at an index -/

/-- The first point, scratch row: the first block's column sum over zero. -/
theorem first_cnt (c : Dev nD) (hn : 0 < cfg0.N) (u : Fin 1) (q : Fin 512) :
    (outsAt0 m c 0 hn).2 (ix2 u q) = 0 + ∑ r : Fin 2000, tblk m c (⟨0, hn⟩ : Fin cfg0.N) (ix2 r q) := by
  have h0 : (⟨0, hn⟩ : Fin cfg0.N).val % 25 = 0 := Nat.zero_mod _
  have h1 : ¬(⟨0, hn⟩ : Fin cfg0.N).val % 25 = 24 := by show ¬(0 % 25 = 24); decide
  show (outsAt0 m c (⟨0, hn⟩ : Fin cfg0.N).val (⟨0, hn⟩ : Fin cfg0.N).isLt).2 (ix2 u q) = _
  rw [outsAt0_A m c (⟨0, hn⟩ : Fin cfg0.N) h0 h1]
  dsimp only
  refine (congrFun (Pieces.cnt_first (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) ((hcond0_0 (⟨0, hn⟩ : Fin cfg0.N)).mpr h0) (fun h => h1 ((hcond0_1 (⟨0, hn⟩ : Fin cfg0.N)).mp h)) (iblk m c 0 (⟨0, hn⟩ : Fin cfg0.N)) (iblk m c 1 (⟨0, hn⟩ : Fin cfg0.N))) (ix2 u q)).trans ?_
  refine (Payloads.colsum_apply (iblk m c 0 (⟨0, hn⟩ : Fin cfg0.N)) (k0_pay2 (F := Ideal)) u q).trans ?_
  rw [Payloads.zero_row_apply]

/-- The first point, output block: the first block's product over zero. -/
theorem first_out (c : Dev nD) (hn : 0 < cfg0.N) (p q : Fin 512) :
    (outsAt0 m c 0 hn).1 (ix2 p q) = 0 + ∑ r : Fin 2000, tblk m c (⟨0, hn⟩ : Fin cfg0.N) (ix2 r p) * fblk m c (⟨0, hn⟩ : Fin cfg0.N) (ix2 r q) := by
  have h0 : (⟨0, hn⟩ : Fin cfg0.N).val % 25 = 0 := Nat.zero_mod _
  have h1 : ¬(⟨0, hn⟩ : Fin cfg0.N).val % 25 = 24 := by show ¬(0 % 25 = 24); decide
  show (outsAt0 m c (⟨0, hn⟩ : Fin cfg0.N).val (⟨0, hn⟩ : Fin cfg0.N).isLt).1 (ix2 p q) = _
  rw [outsAt0_A m c (⟨0, hn⟩ : Fin cfg0.N) h0 h1]
  dsimp only
  refine (congrFun (Pieces.out_first (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) ((hcond0_0 (⟨0, hn⟩ : Fin cfg0.N)).mpr h0) (fun h => h1 ((hcond0_1 (⟨0, hn⟩ : Fin cfg0.N)).mp h)) (iblk m c 0 (⟨0, hn⟩ : Fin cfg0.N)) (iblk m c 1 (⟨0, hn⟩ : Fin cfg0.N))) (ix2 p q)).trans ?_
  refine (Payloads.update_apply (iblk m c 0 (⟨0, hn⟩ : Fin cfg0.N)) (iblk m c 1 (⟨0, hn⟩ : Fin cfg0.N)) (k0_pay1 (F := Ideal)) p q).trans ?_
  rw [Payloads.zero_blk_apply]

/-- A middle point, scratch row: the block's column sum over what the point before left. -/
theorem mid_cnt (c : Dev nD) (n : ℕ) (hn : n + 1 < cfg0.N) (h0 : ¬(n + 1) % 25 = 0) (h1 : ¬(n + 1) % 25 = 24) (u : Fin 1) (q : Fin 512) :
    (outsAt0 m c (n + 1) hn).2 (ix2 u q) = (outsAt0 m c n (Nat.lt_of_succ_lt hn)).2 (ix2 u q) + ∑ r : Fin 2000, tblk m c (⟨n + 1, hn⟩ : Fin cfg0.N) (ix2 r q) := by
  show (outsAt0 m c (⟨n + 1, hn⟩ : Fin cfg0.N).val (⟨n + 1, hn⟩ : Fin cfg0.N).isLt).2 (ix2 u q) = _
  rw [outsAt0_B m c (⟨n + 1, hn⟩ : Fin cfg0.N) h0 h1]
  dsimp only
  refine (congrFun (Pieces.cnt_mid (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (outsAt0 m c n (Nat.lt_of_succ_lt hn)).1 (outsAt0 m c n (Nat.lt_of_succ_lt hn)).2) (ix2 u q)).trans ?_
  exact Payloads.colsum_apply (iblk m c 0 (⟨n + 1, hn⟩ : Fin cfg0.N)) (outsAt0 m c n (Nat.lt_of_succ_lt hn)).2 u q

/-- A middle point, output block: the block's product over what the point before left. -/
theorem mid_out (c : Dev nD) (n : ℕ) (hn : n + 1 < cfg0.N) (h0 : ¬(n + 1) % 25 = 0) (h1 : ¬(n + 1) % 25 = 24) (p q : Fin 512) :
    (outsAt0 m c (n + 1) hn).1 (ix2 p q) = (outsAt0 m c n (Nat.lt_of_succ_lt hn)).1 (ix2 p q) + ∑ r : Fin 2000, tblk m c (⟨n + 1, hn⟩ : Fin cfg0.N) (ix2 r p) * fblk m c (⟨n + 1, hn⟩ : Fin cfg0.N) (ix2 r q) := by
  show (outsAt0 m c (⟨n + 1, hn⟩ : Fin cfg0.N).val (⟨n + 1, hn⟩ : Fin cfg0.N).isLt).1 (ix2 p q) = _
  rw [outsAt0_B m c (⟨n + 1, hn⟩ : Fin cfg0.N) h0 h1]
  dsimp only
  refine (congrFun (Pieces.out_mid (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (outsAt0 m c n (Nat.lt_of_succ_lt hn)).1 (outsAt0 m c n (Nat.lt_of_succ_lt hn)).2) (ix2 p q)).trans ?_
  exact Payloads.update_apply (iblk m c 0 (⟨n + 1, hn⟩ : Fin cfg0.N)) (iblk m c 1 (⟨n + 1, hn⟩ : Fin cfg0.N)) (outsAt0 m c n (Nat.lt_of_succ_lt hn)).1 p q

/-- The last point, scratch row: updated like at a middle point. -/
theorem last_cnt (c : Dev nD) (n : ℕ) (hn : n + 1 < cfg0.N) (h0 : ¬(n + 1) % 25 = 0) (h1 : (n + 1) % 25 = 24) (u : Fin 1) (q : Fin 512) :
    (outsAt0 m c (n + 1) hn).2 (ix2 u q) = (outsAt0 m c n (Nat.lt_of_succ_lt hn)).2 (ix2 u q) + ∑ r : Fin 2000, tblk m c (⟨n + 1, hn⟩ : Fin cfg0.N) (ix2 r q) := by
  show (outsAt0 m c (⟨n + 1, hn⟩ : Fin cfg0.N).val (⟨n + 1, hn⟩ : Fin cfg0.N).isLt).2 (ix2 u q) = _
  rw [outsAt0_C m c (⟨n + 1, hn⟩ : Fin cfg0.N) h0 h1]
  dsimp only
  refine (congrFun (Pieces.cnt_last (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).1 (outsAt0 m c n (Nat.lt_of_succ_lt hn)).2) (ix2 u q)).trans ?_
  exact Payloads.colsum_apply (iblk m c 0 (⟨n + 1, hn⟩ : Fin cfg0.N)) (outsAt0 m c n (Nat.lt_of_succ_lt hn)).2 u q

/-- The last point, output block: the updated entry over the updated scratch entry of its row. -/
theorem last_out (c : Dev nD) (n : ℕ) (hn : n + 1 < cfg0.N) (h0 : ¬(n + 1) % 25 = 0) (h1 : (n + 1) % 25 = 24) (p q : Fin 512) :
    (outsAt0 m c (n + 1) hn).1 (ix2 p q)
      = Ideal.div ((outsAt0 m c n (Nat.lt_of_succ_lt hn)).1 (ix2 p q) + ∑ r : Fin 2000, tblk m c (⟨n + 1, hn⟩ : Fin cfg0.N) (ix2 r p) * fblk m c (⟨n + 1, hn⟩ : Fin cfg0.N) (ix2 r q))
          ((outsAt0 m c n (Nat.lt_of_succ_lt hn)).2 (ix2 (0 : Fin 1) p) + ∑ r : Fin 2000, tblk m c (⟨n + 1, hn⟩ : Fin cfg0.N) (ix2 r p)) := by
  show (outsAt0 m c (⟨n + 1, hn⟩ : Fin cfg0.N).val (⟨n + 1, hn⟩ : Fin cfg0.N).isLt).1 (ix2 p q) = _
  rw [outsAt0_C m c (⟨n + 1, hn⟩ : Fin cfg0.N) h0 h1]
  dsimp only
  refine (congrFun (Pieces.out_last (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).1 (outsAt0 m c n (Nat.lt_of_succ_lt hn)).2) (ix2 p q)).trans ?_
  refine (Payloads.quotient_apply (k0_pay4 (F := Ideal) (iblk m c 0 (⟨n + 1, hn⟩ : Fin cfg0.N)) (outsAt0 m c n (Nat.lt_of_succ_lt hn)).2) (k0_pay3 (F := Ideal) (iblk m c 0 (⟨n + 1, hn⟩ : Fin cfg0.N)) (iblk m c 1 (⟨n + 1, hn⟩ : Fin cfg0.N)) (outsAt0 m c n (Nat.lt_of_succ_lt hn)).1) p q).trans ?_
  exact congrArg₂ Ideal.div (Payloads.update_apply (iblk m c 0 (⟨n + 1, hn⟩ : Fin cfg0.N)) (iblk m c 1 (⟨n + 1, hn⟩ : Fin cfg0.N)) (outsAt0 m c n (Nat.lt_of_succ_lt hn)).1 p q)
    (Payloads.colsum_apply (iblk m c 0 (⟨n + 1, hn⟩ : Fin cfg0.N)) (outsAt0 m c n (Nat.lt_of_succ_lt hn)).2 (0 : Fin 1) p)

/-! ## The invariant -/

/-- After point `n`: the scratch row is the sum of the first `n + 1` blocks' column sums; the output block is
    the sum of their products, already divided by the scratch entry of its row once `n` is the last point. -/
theorem outsAt_inv (c : Dev nD) : ∀ (n : ℕ) (hn : n < cfg0.N),
    (∀ (u : Fin 1) (q : Fin 512), (outsAt0 m c n hn).2 (ix2 u q) = upTo n (colTerm m c q))
    ∧ (∀ p q : Fin 512, (outsAt0 m c n hn).1 (ix2 p q)
        = if n = 24 then Ideal.div (upTo n (prodTerm m c p q)) (upTo n (colTerm m c p)) else upTo n (prodTerm m c p q))
  | 0, hn => by
    refine ⟨fun u q => ?_, fun p q => ?_⟩
    · rw [first_cnt m c hn u q, zero_add, colTerm_blk m c (⟨0, hn⟩ : Fin cfg0.N) (show (0 : ℕ) < 25 by decide) q, upTo_zero]; rfl
    · rw [first_out m c hn p q, zero_add, prodTerm_blk m c (⟨0, hn⟩ : Fin cfg0.N) (show (0 : ℕ) < 25 by decide) p q, if_neg (by decide), upTo_zero]; rfl
  | n + 1, hn => by
    have hN : n + 1 < 25 := lt_of_lt_of_eq hn (show cfg0.N = 25 from N_0)
    obtain ⟨ihc, iho⟩ := outsAt_inv c n (Nat.lt_of_succ_lt hn)
    have iho' : ∀ p q : Fin 512, (outsAt0 m c n (Nat.lt_of_succ_lt hn)).1 (ix2 p q) = upTo n (prodTerm m c p q) :=
      fun p q => (iho p q).trans (if_neg (by omega))
    have h0 : ¬(n + 1) % 25 = 0 := by omega
    by_cases h1 : (n + 1) % 25 = 24
    · have e24 : n + 1 = 24 := by omega
      refine ⟨fun u q => ?_, fun p q => ?_⟩
      · rw [last_cnt m c n hn h0 h1 u q, ihc, colTerm_blk m c (⟨n + 1, hn⟩ : Fin cfg0.N) hN q, upTo_succ n hN]
      · rw [last_out m c n hn h0 h1 p q, iho', ihc, prodTerm_blk m c (⟨n + 1, hn⟩ : Fin cfg0.N) hN p q, colTerm_blk m c (⟨n + 1, hn⟩ : Fin cfg0.N) hN p,
          if_pos e24, upTo_succ n hN, upTo_succ n hN]
    · have ne24 : ¬n + 1 = 24 := by omega
      refine ⟨fun u q => ?_, fun p q => ?_⟩
      · rw [mid_cnt m c n hn h0 h1 u q, ihc, colTerm_blk m c (⟨n + 1, hn⟩ : Fin cfg0.N) hN q, upTo_succ n hN]
      · rw [mid_out m c n hn h0 h1 p q, iho', prodTerm_blk m c (⟨n + 1, hn⟩ : Fin cfg0.N) hN p q, if_neg ne24, upTo_succ n hN]

end Cert.KernelIdeal.Acc

end
-- ==== Proof.Centers.lean ====
/-
  The specification: the weighted per-cluster mean, as one function of the two argument arrays.

  With `t` the targets and `f` the features, both [50000, 512], entry `(p, q)` of the result is

      (∑ n, t (n, p) · f (n, q)) / (∑ n, t (n, p))

  on the extended reals, the quotient being the ideal division. Both programs are shown to end at this.
-/
import Idealize.ShloMosaic.PureOps.Ideal
import Idealize.ShloMosaic.Lib.ValueIdx

noncomputable section

open Idealize.ShloMosaic Idealize.ShloMosaic.ValueIdx

namespace Cert.Centers

/-- The column sum of the targets: the weight of cluster `p`. -/
def weight (t : (⟨2, ![50000, 512]⟩ : Shape).Idx → EReal) (p : Fin 512) : EReal :=
  ∑ n : Fin 50000, t (ix2 n p)

/-- The weighted sum of the features for cluster `p`, coordinate `q`. -/
def weighted (t f : (⟨2, ![50000, 512]⟩ : Shape).Idx → EReal) (p q : Fin 512) : EReal :=
  ∑ n : Fin 50000, t (ix2 n p) * f (ix2 n q)

/-- The centers: the weighted sums over the weights. -/
def centers (t f : (⟨2, ![50000, 512]⟩ : Shape).Idx → EReal) : (⟨2, ![512, 512]⟩ : Shape).Idx → EReal :=
  fun j => Ideal.div (weighted t f (j 0) (j 1)) (weight t (j 0))

theorem centers_apply (t f : (⟨2, ![50000, 512]⟩ : Shape).Idx → EReal) (p q : Fin 512) :
    centers t f (ix2 p q) = Ideal.div (weighted t f p q) (weight t p) := rfl

end Cert.Centers

end
-- ==== Proof.KernelResult.lean ====
/-
  The idealized kernel's result array after the run is the centers of its two argument arrays.

  The output window is written back once, after the last grid point, and its one block is the whole
  [512, 512] array. By then the output buffer holds, at `(p, q)`, the sum over all 25 blocks of the
  block products divided by the sum over all 25 blocks of the block column sums; summing block by block
  is summing over all 50000 rows, so this is the specification.
-/
import proofs.«100807_g44066364457311_cont_sun_m_439_3_alg».proof.Proof.Accumulate
import proofs.«100807_g44066364457311_cont_sun_m_439_3_alg».proof.Proof.Centers

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Acc Cert.BlockSums

variable (m : (ℓ : Loc nD τ sig) → Buf (Elt Ideal) ℓ) (ρ : Dev nD → PrngReg)

/-- The centers of the targets and features the region finds, as contents of the result array. -/
abbrev result (c : Dev nD) : Buf (Elt Ideal) ((c : Thread nD τ).loc main_v0) :=
  Cert.Centers.centers (targets m c) (features m c)

/-- The last grid point. -/
abbrev tLast : Fin cfg0.N := ⟨24, by rw [show cfg0.N = 25 from N_0]; decide⟩

/-- After the last point the output buffer holds the centers: the invariant at 24, the partial sums being total. -/
theorem last_holds (c : Dev nD) : (outsAt0 m c tLast.val tLast.isLt).1 = result m c := by
  funext j
  obtain ⟨p, q, rfl⟩ : ∃ (p q : Fin 512), j = ix2 p q := ⟨j 0, j 1, eq_ix2 j⟩
  refine ((outsAt_inv m c 24 tLast.isLt).2 p q).trans ?_
  rw [if_pos rfl, upTo_last, upTo_last]
  exact congrArg₂ Ideal.div
    (sum_blocks (fun n : Fin 50000 => targets m c (ix2 n p) * features m c (ix2 n q)))
    (sum_blocks (fun n : Fin 50000 => targets m c (ix2 n p)))

/-- The one write-back writes it: block (0, 0) of the array, read through zero offsets, is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 25 := N_0
  have h24 : t.val = 24 := by have := (flush0_2 t).mp hf; have := t.isLt; omega
  obtain rfl : t = tLast := Fin.ext h24
  rw [Value.flushed2, last_holds]
  have hz' : (fun a => win0_2.index tLast a * main_v0.ty.shape.size a) = fun _ => 0 := funext fun a => by fin_cases a <;> decide
  exact (Memref.read_access_unit_zero (Elt Ideal) main_v0 hz' (fun a => by rw [congrFun hz' a]; simp) (result m c)).symm

/-- So the result array ends at the centers: the last point's block covers every index. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 512 := (i 0).isLt
      have h1 : (i 1 : Nat) < 512 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 512 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 512 from by decide +kernel]; omega⟩

/-- The run, read: the result array at the centers, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.ReferenceResult.lean ====
/-
  The reference's result is the centers of its two argument arrays.

  Read one operation at a time: the transposed targets times the features is, at `(p, q)`,
  `∑ n, t (n, p) · f (n, q)`; the column sums of the targets start from the zero constant, `0 + ∑ n, t (n, p)`,
  and are broadcast along the rows; the host's quotient is the ideal division.
-/
import proofs.«100807_g44066364457311_cont_sun_m_439_3_alg».proof.Proof.Gen.ReferenceIdeal.Read
import proofs.«100807_g44066364457311_cont_sun_m_439_3_alg».proof.Proof.Centers

noncomputable section

open Idealize.ShloMosaic Idealize.ShloMosaic.ValueIdx

namespace Cert.ReferenceIdeal.RefValue

open Cert.ReferenceIdeal Cert.ReferenceIdeal.Gen Cert.ReferenceIdeal.Read

/-- Where the product reads the targets: row `k`, column `p` (through the transpose). -/
theorem lhs_row (p q : Fin 512) (k : Fin 50000) : idx_main_v1 (lidx_main_v2 (ix2 p q) k) = ix2 k p :=
  funext fun a => Fin.ext (by match a with | ⟨0, _⟩ => rfl | ⟨1, _⟩ => rfl)

/-- Where it reads the features: row `k`, column `q`. -/
theorem rhs_row (p q : Fin 512) (k : Fin 50000) : ridx_main_v2 (ix2 p q) k = ix2 k q :=
  funext fun a => Fin.ext (by match a with | ⟨0, _⟩ => rfl | ⟨1, _⟩ => rfl)

/-- Where the broadcast column sum of row `p` reads the targets: row `k`, column `p`. -/
theorem sum_row (p q : Fin 512) (k : Fin 50000) : idx_main_v0 (idx_main_v3 (idx_main_v4 (ix2 p q))) k = ix2 k p :=
  funext fun a => Fin.ext (by match a with | ⟨0, _⟩ => rfl | ⟨1, _⟩ => rfl)

/-- The reference's last stage is the specification, index by index (`x0` the features, `x1` the targets). -/
theorem result_eq (x0 x1 : (⟨S50000x512, .f32⟩ : BufTy).Contents (Elt Ideal)) :
    val_main_v5 (F := Ideal) x0 x1 = Cert.Centers.centers x1 x0 := by
  funext j
  obtain ⟨p, q, rfl⟩ : ∃ (p q : Fin 512), j = ix2 p q := ⟨j 0, j 1, eq_ix2 j⟩
  rw [val_main_v5_apply, val_main_v2_apply, val_main_v4_apply, val_main_v3_apply, val_main_v0_apply, val_main_cst_apply]
  simp only [val_main_v1_apply, lhs_row, rhs_row, sum_row]
  show Ideal.div _ (Ideal.ofBits .f32 0x00000000#32 + _) = _
  rw [Ideal.ofBits_zero_f32, zero_add]
  rfl

end Cert.ReferenceIdeal.RefValue

end
-- ==== Proof.lean ====
/-
  The kernel computes the weighted per-cluster means of 50000 feature rows: with `t` the targets and `f`
  the features, both [50000, 512], entry `(p, q)` of the [512, 512] result is

      (∑ n, t (n, p) · f (n, q)) / (∑ n, t (n, p)).

  The kernel walks the rows in 25 blocks of 2000. It keeps the partial product `tᵀ · f` in the output block
  and the partial column sums of `t` in a scratch row, resets both at the first block, and at the last block
  divides each output row by its column sum — the row of sums turned into a column by a product with the
  identity matrix. The reference takes the column sums, the whole product `tᵀ · f` and the quotient in one go.

  Over the extended reals the two agree with no condition on the inputs: the blockwise accumulation is a
  regrouping of one sum (addition is commutative and associative, also at the infinities), the identity
  product returns the row's entries exactly (`1 · x = x`, `0 · x = 0` for every extended real), and both
  quotients are the ideal division. The pass that idealizes the kernel rewrote nothing.

  Modules: BlockSums (summing in blocks), Centers (the specification), Pieces (what each grid point
  stores, as values), Payloads (those values at an index), Accumulate (the two running quantities after
  each point, by induction), KernelResult (the kernel's result array is the specification),
  ReferenceResult (so is the reference's); the three frames are the generated ones.
-/
import proofs.«100807_g44066364457311_cont_sun_m_439_3_alg».proof.Defs
import proofs.«100807_g44066364457311_cont_sun_m_439_3_alg».proof.Proof.Gen.Kernel
import proofs.«100807_g44066364457311_cont_sun_m_439_3_alg».proof.Proof.Gen.Kernel.Skeleton
import proofs.«100807_g44066364457311_cont_sun_m_439_3_alg».proof.Proof.Gen.Kernel.Launch
import proofs.«100807_g44066364457311_cont_sun_m_439_3_alg».proof.Proof.Gen.Kernel.Points
import proofs.«100807_g44066364457311_cont_sun_m_439_3_alg».proof.Proof.Gen.Kernel.Frame
import proofs.«100807_g44066364457311_cont_sun_m_439_3_alg».proof.Proof.Gen.KernelIdeal
import proofs.«100807_g44066364457311_cont_sun_m_439_3_alg».proof.Proof.Gen.KernelIdeal.Skeleton
import proofs.«100807_g44066364457311_cont_sun_m_439_3_alg».proof.Proof.Gen.KernelIdeal.Launch
import proofs.«100807_g44066364457311_cont_sun_m_439_3_alg».proof.Proof.Gen.KernelIdeal.Points
import proofs.«100807_g44066364457311_cont_sun_m_439_3_alg».proof.Proof.Gen.KernelIdeal.Frame
import proofs.«100807_g44066364457311_cont_sun_m_439_3_alg».proof.Proof.Gen.ReferenceIdeal
import proofs.«100807_g44066364457311_cont_sun_m_439_3_alg».proof.Proof.Gen.Pre_finite_inputs
import proofs.«100807_g44066364457311_cont_sun_m_439_3_alg».proof.Proof.Gen.KernelIdeal.Value
import proofs.«100807_g44066364457311_cont_sun_m_439_3_alg».proof.Proof.Gen.ReferenceIdeal.Run
import proofs.«100807_g44066364457311_cont_sun_m_439_3_alg».proof.Proof.Gen.ReferenceIdeal.Read
import proofs.«100807_g44066364457311_cont_sun_m_439_3_alg».proof.Proof.KernelResult
import proofs.«100807_g44066364457311_cont_sun_m_439_3_alg».proof.Proof.ReferenceResult
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end at the centers of the same two arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
